-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x5 : S_.BroadcastsInDim S100000x5 (![] : Fin 0 → Fin S100000x5.rank)
  reducesTo_S100000x5_S_d0_1 : S100000x5.ReducesTo [0, 1] S_
  h_S_ : 0 < S_.numel
  bcast_S_S5x128 : S_.BroadcastsInDim S5x128 (![] : Fin 0 → Fin S5x128.rank)
  reducesTo_S5x128_S_d0_1 : S5x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x5 .f32) (main_arg1 : IVec S2x1600000 32) (main_arg2 : FVec F S5x128 .f32) (main_arg3 : FVec F S128 .f32) (main_arg4 : FVec F S128x1 .f32) (main_arg5 : FVec F S1 .f32) : IVec S_ 1 :=
  let main_v0 : FVec F S100000x5 .f32 := Host.absf main_arg0
  let main_cst : FVec F S_ .f32 := constant S_ .f32 0x7F800000#32
  let main_v1 : FVec F S100000x5 .f32 := broadcastInDim S100000x5 ![] bcast_S_S100000x5 main_cst
  let main_v2 : IVec S100000x5 1 := cmpf .olt main_v0 main_v1
  let main_c : IVec S_ 1 := constantI S_ 1 1#1
  let main_v3 : IVec S_ 1 := (fun x v => Host.reduce IntOp.andi x v reducesTo_S100000x5_S_d0_1 h_S_) main_v2 main_c
  let main_v4 : FVec F S5x128 .f32 := Host.absf main_arg2
  let main_cst_0 : FVec F S_ .f32 := constant S_ .f32 0x7F800000#32
  let main_v5 : FVec F S5x128 .f32 := broadcastInDim S5x128 ![] bcast_S_S5x128 main_cst_0
  let main_v6 : IVec S5x128 1 := cmpf .olt main_v4 main_v5
  let main_c_1 : IVec S_ 1 := constantI S_ 1 1#1
  let main_v7 : IVec S_ 1 := (fun x v => Host.reduce IntOp.andi x v reducesTo_S5x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x5 : Shape := ⟨2, ![5000, 5]⟩
abbrev S5000x128 : Shape := ⟨2, ![5000, 128]⟩
abbrev S1600000x128 : Shape := ⟨2, ![1600000, 128]⟩
abbrev S1x128 : Shape := ⟨2, ![1, 128]⟩
abbrev S5000x1 : Shape := ⟨2, ![5000, 1]⟩
abbrev S1x1 : Shape := ⟨2, ![1, 1]⟩

abbrev nBuf : Space → Nat
  | .hbm => 77
  | .vmem => 28
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S100000, .f32⟩
  | .hbm, ⟨14, _⟩ => ⟨S1600000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000, .f32⟩
  | .hbm, ⟨40, _⟩ => ⟨S1600000, .f32⟩
  | .hbm, ⟨41, _⟩ => ⟨S1600000x1, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x1, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x1, .f32⟩
  | .hbm, ⟨70, _⟩ => ⟨S1600000x1, .f32⟩
  | .hbm, ⟨71, _⟩ => ⟨S_, .f32⟩
  | .hbm, ⟨72, _⟩ => ⟨S100000x1, .f32⟩
  | .hbm, ⟨73, _⟩ => ⟨S1600000x1, .i32⟩
  | .hbm, ⟨74, _⟩ => ⟨S100000x1, .f32⟩
  | .hbm, ⟨75, _⟩ => ⟨S1x1, .f32⟩
  | .hbm, ⟨76, _⟩ => ⟨S100000x1, .f32⟩
  | .local _ .vmem, ⟨0, _⟩ => ⟨S5000x5, .f32⟩
  | .local _ .vmem, ⟨1, _⟩ => ⟨S5000x5, .f32⟩
  | .local _ .vmem, ⟨2, _⟩ => ⟨S5x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S128x1, .f32⟩
  | .local _ .vmem, ⟨17, _⟩ => ⟨S5000x1, .f32⟩
  | .local _ .vmem, ⟨18, _⟩ => ⟨S5000x1, .f32⟩
  | .local _ .vmem, ⟨19, _⟩ => ⟨S5000x1, .f32⟩
  | .local _ .vmem, ⟨20, _⟩ => ⟨S5000x1, .f32⟩
  | .local _ .vmem, ⟨21, _⟩ => ⟨S5000x1, .f32⟩
  | .local _ .vmem, ⟨22, _⟩ => ⟨S5000x1, .f32⟩
  | .local _ .vmem, ⟨23, _⟩ => ⟨S5000x1, .f32⟩
  | .local _ .vmem, ⟨24, _⟩ => ⟨S5000x1, .f32⟩
  | .local _ .vmem, ⟨25, _⟩ => ⟨S1x1, .f32⟩
  | .local _ .vmem, ⟨26, _⟩ => ⟨S5000x1, .f32⟩
  | .local _ .vmem, ⟨27, _⟩ => ⟨S5000x1, .f32⟩
  | _, _ => ⟨S100000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c_8 : Ref sig .tc := ⟨.hbm, 61, rfl⟩
abbrev main_v45 : Ref sig .tc := ⟨.hbm, 62, rfl⟩
abbrev main_v46 : Ref sig .tc := ⟨.hbm, 63, rfl⟩
abbrev main_c_9 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x1 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  shapeCasts_S1600000_S1600000x1 : S1600000.ShapeCasts S1600000x1
  inb_S5000x5_S5000x5_0_0 : ∀ a, (![0, 0] : Fin 2 → Nat) a + S5000x5.size a ≤ S5000x5.size a
  h_S5000x5 : 0 < S5000x5.numel
  bitsLt_bf16_f32 : FTy.bits .bf16 < FTy.bits .f32
  inb_S5x128_S5x128_0_0 : ∀ a, (![0, 0] : Fin 2 → Nat) a + S5x128.size a ≤ S5x128.size a
  h_S5x128 : 0 < S5x128.numel
  inb_S5000x128_S5000x128_0_0 : ∀ a, (![0, 0] : Fin 2 → Nat) a + S5000x128.size a ≤ S5000x128.size a
  h_S5000x128 : 0 < S5000x128.numel
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  bcast_S_S100000x1 : S_.BroadcastsInDim S100000x1 (![] : Fin 0 → Fin S100000x1.rank)
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S5000x5_S5x128_S5000x128_1_0_0_1_n_n_wf : DotDims.WF S5000x5 S5x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x1_S5000x1_1_0_0_1_n_n_wf : DotDims.WF S5000x128 S128x1 S5000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x5.size a ≤ S100000x5.size a
  hwx0_0 : ∀ i : grid0.Coords, EltTy.bits .f32 = 32 ∨ (Rect.block (s := S100000x5) S5000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S5x128.size a ≤ S5x128.size a
  hwx0_1 : ∀ i : grid0.Coords, EltTy.bits .f32 = 32 ∨ (Rect.block (s := S5x128) S5x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S100000x128.size a
  hwx1_4 : ∀ i : grid1.Coords, EltTy.bits .f32 = 32 ∨ (Rect.block (s := S100000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S128x1.size a
  hwx2_1 : ∀ i : grid2.Coords, EltTy.bits .f32 = 32 ∨ (Rect.block (s := S128x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x1.size a ≤ S100000x1.size a
  hwx3_0 : ∀ i : grid3.Coords, EltTy.bits .f32 = 32 ∨ (Rect.block (s := S100000x1) S5000x1.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x1.size a ≤ S1x1.size a
  hwx3_3 : ∀ i : grid3.Coords, EltTy.bits .f32 = 32 ∨ (Rect.block (s := S1x1) S1x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x1.size a ≤ S100000x1.size a
  hwx3_4 : ∀ i : grid3.Coords, EltTy.bits .f32 = 32 ∨ (Rect.block (s := S100000x1) S5000x1.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S5000x5_S5x128_S5000x128_1_0_0_1_n_n : DotDims S5000x5 S5x128 S5000x128 where
  lhsContracting := [1]
  rhsContracting := [0]
  lhsNonContracting := [0]
  rhsNonContracting := [1]
  lhsBatch := []
  rhsBatch := []
  wf := dot_S5000x5_S5x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

abbrev win0_0 : Pipeline.Window sig grid0 :=
  Pipeline.Window.ofSpec (Memref.whole main_arg0) S5000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x1.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x1.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v56) S1x1.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v57) S5000x1.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x5 : Shape := ⟨2, ![100000, 5]⟩
abbrev S2x1600000 : Shape := ⟨2, ![2, 1600000]⟩
abbrev S5x128 : Shape := ⟨2, ![5, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x1 : Shape := ⟨2, ![1, 1]⟩

abbrev nBuf : Space → Nat
  | .hbm => 119
  | .vmem => 0
  | .smem => 0
  | _ => 0

abbrev bufTy : (tb : Table) → Fin (tcTables nBuf tb) → BufTy
  | .hbm, ⟨0, _⟩ => ⟨S100000x5, .f32⟩
  | .hbm, ⟨1, _⟩ => ⟨S2x1600000, .i32⟩
  | .hbm, ⟨2, _⟩ => ⟨S5x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000x128, .f32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000, .f32⟩
  | .hbm, ⟨39, _⟩ => ⟨S1600000, .f32⟩
  | .hbm, ⟨40, _⟩ => ⟨S_, .i32⟩
  | .hbm, ⟨41, _⟩ => ⟨S1600000, .i32⟩
  | .hbm, ⟨42, _⟩ => ⟨S1600000, .i1⟩
  | .hbm, ⟨43, _⟩ => ⟨S_, .i32⟩
  | .hbm, ⟨44, _⟩ => ⟨S1600000, .i32⟩
  | .hbm, ⟨45, _⟩ => ⟨S1600000, .i32⟩
  | .hbm, ⟨46, _⟩ => ⟨S1600000, .i32⟩
  | .hbm, ⟨47, _⟩ => ⟨S1600000x1, .i32⟩
  | .hbm, ⟨48, _⟩ => ⟨S1600000x128, .f32⟩
  | .hbm, ⟨49, _⟩ => ⟨S1600000x1, .f32⟩
  | .hbm, ⟨50, _⟩ => ⟨S1600000x128, .f32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000, .f32⟩
  | .hbm, ⟨57, _⟩ => ⟨S100000x1, .f32⟩
  | .hbm, ⟨58, _⟩ => ⟨S100000x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | .hbm, ⟨67, _⟩ => ⟨S100000x1, .f32⟩
  | .hbm, ⟨68, _⟩ => ⟨S_, .f32⟩
  | .hbm, ⟨69, _⟩ => ⟨S1600000, .f32⟩
  | .hbm, ⟨70, _⟩ => ⟨S_, .f32⟩
  | .hbm, ⟨71, _⟩ => ⟨S100000, .f32⟩
  | .hbm, ⟨72, _⟩ => ⟨S1600000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S1600000, .i32⟩
  | .hbm, ⟨80, _⟩ => ⟨S1600000, .i1⟩
  | .hbm, ⟨81, _⟩ => ⟨S_, .i32⟩
  | .hbm, ⟨82, _⟩ => ⟨S1600000, .i32⟩
  | .hbm, ⟨83, _⟩ => ⟨S1600000, .i32⟩
  | .hbm, ⟨84, _⟩ => ⟨S1600000, .i32⟩
  | .hbm, ⟨85, _⟩ => ⟨S1600000x1, .i32⟩
  | .hbm, ⟨86, _⟩ => ⟨S1600000, .f32⟩
  | .hbm, ⟨87, _⟩ => ⟨S_, .i32⟩
  | .hbm, ⟨88, _⟩ => ⟨S1600000, .i32⟩
  | .hbm, ⟨89, _⟩ => ⟨S1600000, .i1⟩
  | .hbm, ⟨90, _⟩ => ⟨S_, .i32⟩
  | .hbm, ⟨91, _⟩ => ⟨S1600000, .i32⟩
  | .hbm, ⟨92, _⟩ => ⟨S1600000, .i32⟩
  | .hbm, ⟨93, _⟩ => ⟨S1600000, .i32⟩
  | .hbm, ⟨94, _⟩ => ⟨S1600000x1, .i32⟩
  | .hbm, ⟨95, _⟩ => ⟨S1600000, .f32⟩
  | .hbm, ⟨96, _⟩ => ⟨S1600000, .f32⟩
  | .hbm, ⟨97, _⟩ => ⟨S_, .i32⟩
  | .hbm, ⟨98, _⟩ => ⟨S1600000, .i32⟩
  | .hbm, ⟨99, _⟩ => ⟨S1600000, .i1⟩
  | .hbm, ⟨100, _⟩ => ⟨S_, .i32⟩
  | .hbm, ⟨101, _⟩ => ⟨S1600000, .i32⟩
  | .hbm, ⟨102, _⟩ => ⟨S1600000, .i32⟩
  | .hbm, ⟨103, _⟩ => ⟨S1600000, .i32⟩
  | .hbm, ⟨104, _⟩ => ⟨S1600000x1, .i32⟩
  | .hbm, ⟨105, _⟩ => ⟨S1600000x1, .f32⟩
  | .hbm, ⟨106, _⟩ => ⟨S1600000x1, .f32⟩
  | .hbm, ⟨107, _⟩ => ⟨S1600000x1, .f32⟩
  | .hbm, ⟨108, _⟩ => ⟨S_, .f32⟩
  | .hbm, ⟨109, _⟩ => ⟨S100000x1, .f32⟩
  | .hbm, ⟨110, _⟩ => ⟨S1600000x1, .i32⟩
  | .hbm, ⟨111, _⟩ => ⟨S100000x1, .f32⟩
  | .hbm, ⟨112, _⟩ => ⟨S100000, .f32⟩
  | .hbm, ⟨113, _⟩ => ⟨S100000x1, .f32⟩
  | .hbm, ⟨114, _⟩ => ⟨S100000x1, .f32⟩
  | .hbm, ⟨115, _⟩ => ⟨S100000x1, .f32⟩
  | .hbm, ⟨116, _⟩ => ⟨S1x1, .f32⟩
  | .hbm, ⟨117, _⟩ => ⟨S100000x1, .f32⟩
  | .hbm, ⟨118, _⟩ => ⟨S100000x1, .f32⟩
  | _, _ => ⟨S100000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_17 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  dot_S100000x5_S5x128_S100000x128_1_0_0_1_n_n_wf : DotDims.WF S100000x5 S5x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]
  scatter_S100000x1_S1600000x1_S1600000x1_1_0_0_1_wf : ScatterDims.WF S100000x1 S1600000x1 S1600000x1 [1] [0] [0] 1

variable [Facts₀]

def dot_S100000x5_S5x128_S100000x128_1_0_0_1_n_n : DotDims S100000x5 S5x128 S100000x128 where
  lhsContracting := [1]
  rhsContracting := [0]
  lhsNonContracting := [0]
  rhsNonContracting := [1]
  lhsBatch := []
  rhsBatch := []
  wf := dot_S100000x5_S5x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf

class Facts : Prop extends Facts₀ where

variable [Facts]
-- ==== Proof.HostRead.lean ====
/-
  The host operations between the kernel regions, read at the buffers the regions take.

  Around its four regions the kernel's program computes on the host exactly what the reference computes: the in-degree
  (plus one) of every node by a scatter-add of ones at the edges' destinations, its inverse square root `dinv`, the
  column of `dinv^2`, the edge coefficients `dinv (src e) * dinv (dst e)` (negative indices wrapped by the number of
  nodes first), and after each linear transform `h` the aggregate: the rows of `h` gathered at the edges' sources,
  scaled by the edge coefficients and scatter-added at the destinations. Each reading below says which of the
  reference's stages a buffer holds after a stretch, as a function of what the stretch found in the buffers it reads;
  the aggregate is named once (`aggregateWide`, `aggregateCol`) and never opened.
-/
import proofs.«173015_j60052232732743_1_alg».proof.Proof.Gen.KernelIdeal.Frame
import proofs.«173015_j60052232732743_1_alg».proof.Proof.Gen.ReferenceIdeal.Read
import Idealize.ShloMosaic.Lib.StableHlo.Run
import Idealize.ShloMosaic.PureOps.Ideal

set_option maxRecDepth 16384

noncomputable section

namespace Cert.HostRead

open Cert.KernelIdeal Cert.KernelIdeal.Gen
open Cert.ReferenceIdeal.Read
open Idealize.ShloMosaic Idealize.ShloMosaic.TcCoe Idealize.SL.Sem Idealize.ShloMosaic.StableHlo

/-! ## The aggregation over incoming edges, as one function of its operands -/

variable {F : FTy → Type} [FloatOps F]

/-- An edge-index vector with its negative entries wrapped by the number of nodes, as a column of gather indices. -/
def wrapCol (v : (⟨Cert.ReferenceIdeal.S1600000, .i32⟩ : BufTy).Contents (Elt F)) : (⟨Cert.ReferenceIdeal.S1600000x1, .i32⟩ : BufTy).Contents (Elt F) :=
  broadcastInDim Cert.ReferenceIdeal.S1600000x1 ![0] Cert.ReferenceIdeal.Facts₀.bcast_S1600000_S1600000x1_0
    (select (cmpi .slt v (broadcastInDim Cert.ReferenceIdeal.S1600000 ![] Cert.ReferenceIdeal.Facts₀.bcast_S_S1600000 (constantI Cert.ReferenceIdeal.S_ 32 0#32)))
      (addi v (broadcastInDim Cert.ReferenceIdeal.S1600000 ![] Cert.ReferenceIdeal.Facts₀.bcast_S_S1600000 (constantI Cert.ReferenceIdeal.S_ 32 100000#32))) v)

/-- The first layer's aggregate: rows of `h` (128 wide) gathered at the sources, scaled by the edge coefficients,
    scatter-added at the destinations into zeros. -/
def aggregateWide (h : (⟨Cert.ReferenceIdeal.S100000x128, .f32⟩ : BufTy).Contents (Elt F)) (src dst : (⟨Cert.ReferenceIdeal.S1600000, .i32⟩ : BufTy).Contents (Elt F))
    (coef : (⟨Cert.ReferenceIdeal.S1600000x1, .f32⟩ : BufTy).Contents (Elt F)) : (⟨Cert.ReferenceIdeal.S100000x128, .f32⟩ : BufTy).Contents (Elt F) :=
  Host.scatterAdd Cert.ReferenceIdeal.scatter_S100000x128_S1600000x1_S1600000x128_1_0_0_1
    (broadcastInDim Cert.ReferenceIdeal.S100000x128 ![] Cert.ReferenceIdeal.Facts₀.bcast_S_S100000x128 (constant Cert.ReferenceIdeal.S_ .f32 0x00000000#32))
    (broadcastInDim Cert.ReferenceIdeal.S1600000x1 ![0] Cert.ReferenceIdeal.Facts₀.bcast_S1600000_S1600000x1_0 dst)
    (mulf (Host.gather Cert.ReferenceIdeal.gather_S100000x128_S1600000x1_S1600000x128_1_0_n_n_0_1_1128 h (wrapCol (F := F) src))
      (broadcastInDim Cert.ReferenceIdeal.S1600000x128 ![0, 1] Cert.ReferenceIdeal.Facts₀.bcast_S1600000x1_S1600000x128_0_1 coef))

/-- The second layer's aggregate: the same over a single column. -/
def aggregateCol (h : (⟨Cert.ReferenceIdeal.S100000x1, .f32⟩ : BufTy).Contents (Elt F)) (src dst : (⟨Cert.ReferenceIdeal.S1600000, .i32⟩ : BufTy).Contents (Elt F))
    (coef : (⟨Cert.ReferenceIdeal.S1600000x1, .f32⟩ : BufTy).Contents (Elt F)) : (⟨Cert.ReferenceIdeal.S100000x1, .f32⟩ : BufTy).Contents (Elt F) :=
  Host.scatterAdd Cert.ReferenceIdeal.scatter_S100000x1_S1600000x1_S1600000x1_1_0_0_1
    (broadcastInDim Cert.ReferenceIdeal.S100000x1 ![] Cert.ReferenceIdeal.Facts₀.bcast_S_S100000x1 (constant Cert.ReferenceIdeal.S_ .f32 0x00000000#32))
    (broadcastInDim Cert.ReferenceIdeal.S1600000x1 ![0] Cert.ReferenceIdeal.Facts₀.bcast_S1600000_S1600000x1_0 dst)
    (mulf (Host.gather Cert.ReferenceIdeal.gather_S100000x1_S1600000x1_S1600000x1_1_0_n_n_0_1_11 h (wrapCol (F := F) src)) coef)

/-! ## The reference's stages in those terms -/

section Reference
variable (x : (⟨Cert.ReferenceIdeal.S100000x5, .f32⟩ : BufTy).Contents (Elt Ideal)) (ei : (⟨Cert.ReferenceIdeal.S2x1600000, .i32⟩ : BufTy).Contents (Elt Ideal))
  (w1 : (⟨Cert.ReferenceIdeal.S5x128, .f32⟩ : BufTy).Contents (Elt Ideal)) (b1 : (⟨Cert.ReferenceIdeal.S128, .f32⟩ : BufTy).Contents (Elt Ideal))
  (w2 : (⟨Cert.ReferenceIdeal.S128x1, .f32⟩ : BufTy).Contents (Elt Ideal))

set_option maxHeartbeats 8000000 in
/-- The reference's first aggregate is the aggregation of its first linear transform. -/
theorem ref_aggregateWide : val_main_v39 (F := Ideal) x ei w1
    = aggregateWide (F := Ideal) (val_main_v4 (F := Ideal) x w1) (val_main_v1 (F := Ideal) ei) (val_main_v3 (F := Ideal) ei) (val_main_v34 (F := Ideal) ei) := rfl

/-- The reference recomputes the inverse square-root degrees for its second layer: the same vector. -/
theorem ref_dinv_again : val_main_v56 (F := Ideal) ei = val_main_v11 (F := Ideal) ei := rfl
/-- Hence the same column of squares. -/
theorem ref_dinv2_again : val_main_v85 (F := Ideal) ei = val_main_v41 (F := Ideal) ei := rfl
/-- And the same column of edge coefficients. -/
theorem ref_coef_again : val_main_v79 (F := Ideal) ei = val_main_v34 (F := Ideal) ei := rfl

set_option maxHeartbeats 8000000 in
/-- The reference's second aggregate is the aggregation of its second linear transform. -/
theorem ref_aggregateCol : val_main_v83 (F := Ideal) x ei w1 b1 w2
    = aggregateCol (F := Ideal) (val_main_v49 (F := Ideal) x ei w1 b1 w2) (val_main_v1 (F := Ideal) ei) (val_main_v3 (F := Ideal) ei) (val_main_v34 (F := Ideal) ei) := rfl
end Reference

/-! ## The kernel program's three host stretches, from whatever contents `Wb` they find -/

variable (Wb : Valuation τ sig (Elt Ideal))

/-! ### Before the first region -/

theorem first_src : StableHlo.after hostOps0 Wb (Proc.devRef .tc main_v1) = val_main_v1 (F := Ideal) (Wb (Proc.devRef .tc main_arg1)) := by
  after_results; rfl
theorem first_dst : StableHlo.after hostOps0 Wb (Proc.devRef .tc main_v3) = val_main_v3 (F := Ideal) (Wb (Proc.devRef .tc main_arg1)) := by
  after_results; rfl
/-- The column of squared inverse square-root degrees, made by a reshape. -/
theorem first_dinv2 : StableHlo.after hostOps0 Wb (Proc.devRef .tc main_v12)
    = shapeCast S100000x1 (val_main_v40 (F := Ideal) (Wb (Proc.devRef .tc main_arg1))) Cert.KernelIdeal.Facts₀.shapeCasts_S100000_S100000x1 := by
  after_results; rfl
set_option maxHeartbeats 8000000 in
/-- The column of edge coefficients, made by a reshape. -/
theorem first_coef : StableHlo.after hostOps0 Wb (Proc.devRef .tc main_v28)
    = shapeCast S1600000x1 (val_main_v26 (F := Ideal) (Wb (Proc.devRef .tc main_arg1))) Cert.KernelIdeal.Facts₀.shapeCasts_S1600000_S1600000x1 := by
  after_results; rfl
theorem first_keeps_arg0 : StableHlo.after hostOps0 Wb (Proc.devRef .tc main_arg0) = Wb (Proc.devRef .tc main_arg0) := by after_results
theorem first_keeps_arg2 : StableHlo.after hostOps0 Wb (Proc.devRef .tc main_arg2) = Wb (Proc.devRef .tc main_arg2) := by after_results
theorem first_keeps_arg3 : StableHlo.after hostOps0 Wb (Proc.devRef .tc main_arg3) = Wb (Proc.devRef .tc main_arg3) := by after_results
theorem first_keeps_arg4 : StableHlo.after hostOps0 Wb (Proc.devRef .tc main_arg4) = Wb (Proc.devRef .tc main_arg4) := by after_results
theorem first_keeps_arg5 : StableHlo.after hostOps0 Wb (Proc.devRef .tc main_arg5) = Wb (Proc.devRef .tc main_arg5) := by after_results

/-! ### Between the first and the second region -/

set_option maxHeartbeats 8000000 in
/-- The first layer's aggregate of what the first region left. -/
theorem second_aggregate : StableHlo.after hostOps1 Wb (Proc.devRef .tc main_v41)
    = aggregateWide (F := Ideal) (Wb (Proc.devRef .tc main_v29)) (Wb (Proc.devRef .tc main_v1)) (Wb (Proc.devRef .tc main_v3)) (Wb (Proc.devRef .tc main_v28)) := by
  after_results; rfl
/-- The first bias as a row, made by a reshape. -/
theorem second_bias : StableHlo.after hostOps1 Wb (Proc.devRef .tc main_v42)
    = shapeCast S1x128 (Wb (Proc.devRef .tc main_arg3)) Cert.KernelIdeal.Facts₀.shapeCasts_S128_S1x128 := by
  after_results; rfl
theorem second_keeps_v29 : StableHlo.after hostOps1 Wb (Proc.devRef .tc main_v29) = Wb (Proc.devRef .tc main_v29) := by after_results
theorem second_keeps_v12 : StableHlo.after hostOps1 Wb (Proc.devRef .tc main_v12) = Wb (Proc.devRef .tc main_v12) := by after_results
theorem second_keeps_v28 : StableHlo.after hostOps1 Wb (Proc.devRef .tc main_v28) = Wb (Proc.devRef .tc main_v28) := by after_results
theorem second_keeps_v1 : StableHlo.after hostOps1 Wb (Proc.devRef .tc main_v1) = Wb (Proc.devRef .tc main_v1) := by after_results
theorem second_keeps_v3 : StableHlo.after hostOps1 Wb (Proc.devRef .tc main_v3) = Wb (Proc.devRef .tc main_v3) := by after_results
theorem second_keeps_arg4 : StableHlo.after hostOps1 Wb (Proc.devRef .tc main_arg4) = Wb (Proc.devRef .tc main_arg4) := by after_results
theorem second_keeps_arg5 : StableHlo.after hostOps1 Wb (Proc.devRef .tc main_arg5) = Wb (Proc.devRef .tc main_arg5) := by after_results

/-! ### Between the third and the fourth region -/

set_option maxHeartbeats 8000000 in
/-- The second layer's aggregate of what the third region left. -/
theorem third_aggregate : StableHlo.after hostOps3 Wb (Proc.devRef .tc main_v55)
    = aggregateCol (F := Ideal) (Wb (Proc.devRef .tc main_v44)) (Wb (Proc.devRef .tc main_v1)) (Wb (Proc.devRef .tc main_v3)) (Wb (Proc.devRef .tc main_v28)) := by
  after_results; rfl
/-- The second bias as a 1 x 1 matrix, made by a reshape. -/
theorem third_bias : StableHlo.after hostOps3 Wb (Proc.devRef .tc main_v56)
    = shapeCast S1x1 (Wb (Proc.devRef .tc main_arg5)) Cert.KernelIdeal.Facts₀.shapeCasts_S1_S1x1 := by
  after_results; rfl
theorem third_keeps_v44 : StableHlo.after hostOps3 Wb (Proc.devRef .tc main_v44) = Wb (Proc.devRef .tc main_v44) := by after_results
theorem third_keeps_v12 : StableHlo.after hostOps3 Wb (Proc.devRef .tc main_v12) = Wb (Proc.devRef .tc main_v12) := by after_results

end Cert.HostRead

end
-- ==== Proof.Layout.lean ====
/-
  Adding a unit axis by a reshape or by a broadcast is the same re-indexing.

  The kernel's program turns a vector into a column (or a row) with a reshape; the reference does it with a
  broadcast along the kept axis. Both read entry (r, 0) (or (0, j)) of the result from entry r (or j) of the operand:
  a reshape keeps the row-major position, which for a unit axis is the kept coordinate, and a broadcast reads the
  operand at the coordinates it names.
-/
import proofs.«173015_j60052232732743_1_alg».proof.Proof.Gen.KernelIdeal
import proofs.«173015_j60052232732743_1_alg».proof.Proof.Gen.ReferenceIdeal
import Idealize.ShloMosaic.Lib.Pipeline.Value

noncomputable section

namespace Cert.Layout

open Idealize.ShloMosaic

/-- A vector of 100000 entries as a 100000 x 1 column. -/
theorem column_100000 {α : Type} (y : Cert.ReferenceIdeal.S100000.Idx → α) :
    shapeCast Cert.KernelIdeal.S100000x1 y Cert.KernelIdeal.Facts₀.shapeCasts_S100000_S100000x1
      = broadcastInDim Cert.ReferenceIdeal.S100000x1 ![0] Cert.ReferenceIdeal.Facts₀.bcast_S100000_S100000x1_0 y := by
  funext i
  have hs := shapeCast_apply y Cert.KernelIdeal.Facts₀.shapeCasts_S100000_S100000x1 i (fun a => match a with | ⟨0, _⟩ => ⟨(i 0).val, (i 0).isLt⟩)
    (by rewrite [Shape.rowMajor_val_one, Shape.rowMajor_val_two]; have h1 : (i 1).val < 1 := (i 1).isLt; show (i 0).val = (i 0).val * 1 + (i 1).val; omega)
  have hb := broadcastInDim_apply ![0] Cert.ReferenceIdeal.Facts₀.bcast_S100000_S100000x1_0 y i (fun a => match a with | ⟨0, _⟩ => ⟨(i 0).val, (i 0).isLt⟩)
    (fun a => match a with
      | ⟨0, _⟩ => by show (i 0).val = if (100000 : Nat) = 1 then 0 else (i 0).val; rw [if_neg (by decide)])
  exact hs.trans hb.symm

/-- A vector of 1600000 entries as a 1600000 x 1 column. -/
theorem column_1600000 {α : Type} (y : Cert.ReferenceIdeal.S1600000.Idx → α) :
    shapeCast Cert.KernelIdeal.S1600000x1 y Cert.KernelIdeal.Facts₀.shapeCasts_S1600000_S1600000x1
      = broadcastInDim Cert.ReferenceIdeal.S1600000x1 ![0] Cert.ReferenceIdeal.Facts₀.bcast_S1600000_S1600000x1_0 y := by
  funext i
  have hs := shapeCast_apply y Cert.KernelIdeal.Facts₀.shapeCasts_S1600000_S1600000x1 i (fun a => match a with | ⟨0, _⟩ => ⟨(i 0).val, (i 0).isLt⟩)
    (by rewrite [Shape.rowMajor_val_one, Shape.rowMajor_val_two]; have h1 : (i 1).val < 1 := (i 1).isLt; show (i 0).val = (i 0).val * 1 + (i 1).val; omega)
  have hb := broadcastInDim_apply ![0] Cert.ReferenceIdeal.Facts₀.bcast_S1600000_S1600000x1_0 y i (fun a => match a with | ⟨0, _⟩ => ⟨(i 0).val, (i 0).isLt⟩)
    (fun a => match a with
      | ⟨0, _⟩ => by show (i 0).val = if (1600000 : Nat) = 1 then 0 else (i 0).val; rw [if_neg (by decide)])
  exact hs.trans hb.symm

/-- A vector of 128 entries as a 1 x 128 row. -/
theorem row_128 {α : Type} (y : Cert.ReferenceIdeal.S128.Idx → α) :
    shapeCast Cert.KernelIdeal.S1x128 y Cert.KernelIdeal.Facts₀.shapeCasts_S128_S1x128
      = broadcastInDim Cert.ReferenceIdeal.S1x128 ![1] Cert.ReferenceIdeal.Facts₀.bcast_S128_S1x128_1 y := by
  funext i
  have hs := shapeCast_apply y Cert.KernelIdeal.Facts₀.shapeCasts_S128_S1x128 i (fun a => match a with | ⟨0, _⟩ => ⟨(i 1).val, (i 1).isLt⟩)
    (by rewrite [Shape.rowMajor_val_one, Shape.rowMajor_val_two]; have h0 : (i 0).val < 1 := (i 0).isLt; show (i 1).val = (i 0).val * 128 + (i 1).val; omega)
  have hb := broadcastInDim_apply ![1] Cert.ReferenceIdeal.Facts₀.bcast_S128_S1x128_1 y i (fun a => match a with | ⟨0, _⟩ => ⟨(i 1).val, (i 1).isLt⟩)
    (fun a => match a with
      | ⟨0, _⟩ => by show (i 1).val = if (128 : Nat) = 1 then 0 else (i 1).val; rw [if_neg (by decide)])
  exact hs.trans hb.symm

/-- A vector of one entry as a 1 x 1 matrix. -/
theorem unit_1 {α : Type} (y : Cert.ReferenceIdeal.S1.Idx → α) :
    shapeCast Cert.KernelIdeal.S1x1 y Cert.KernelIdeal.Facts₀.shapeCasts_S1_S1x1
      = broadcastInDim Cert.ReferenceIdeal.S1x1 ![1] Cert.ReferenceIdeal.Facts₀.bcast_S1_S1x1_1 y := by
  funext i
  have hs := shapeCast_apply y Cert.KernelIdeal.Facts₀.shapeCasts_S1_S1x1 i (fun a => match a with | ⟨0, _⟩ => ⟨0, Nat.one_pos⟩)
    (by rewrite [Shape.rowMajor_val_one, Shape.rowMajor_val_two]; have h0 : (i 0).val < 1 := (i 0).isLt; have h1 : (i 1).val < 1 := (i 1).isLt; show 0 = (i 0).val * 1 + (i 1).val; omega)
  have hb := broadcastInDim_apply ![1] Cert.ReferenceIdeal.Facts₀.bcast_S1_S1x1_1 y i (fun a => match a with | ⟨0, _⟩ => ⟨0, Nat.one_pos⟩)
    (fun a => match a with
      | ⟨0, _⟩ => by show 0 = if (1 : Nat) = 1 then 0 else (i 1).val; rw [if_pos rfl])
  exact hs.trans hb.symm

end Cert.Layout

end
-- ==== Proof.Linear1.lean ====
/-
  The first layer's linear transform as one whole array.

  The region walks the 100000 node rows in twenty blocks of 5000. At each block it multiplies the block of the
  feature matrix `x` (5000 x 5) by the whole weight matrix `w` (5 x 128) into a zero accumulator, so entry (r, j)
  of the block is the sum over the five input features k of x(r, k) * w(k, j); the change of float format before the
  product is the identity on the extended reals. Block t lands on rows 5000 t .. 5000 t + 4999 of the result, the
  twenty blocks tile it, and therefore the result array is the matrix product x * w, entry by entry.
-/
import proofs.«173015_j60052232732743_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear1

open Cert.KernelIdeal Cert.KernelIdeal.Gen
open Idealize.ShloMosaic Idealize.ShloMosaic.TcCoe Idealize.SL.Sem
open Idealize.ShloMosaic.Pipeline (Dat)

theorem zeroOff : (![0, 0] : Fin 2 → Nat) = fun _ => 0 := funext fun a => by fin_cases a <;> rfl

/-! ## The block product at an index -/

/-- Along the rows of the left factor the product's index keeps its row. -/
theorem lhs_axis0 (i : S5000x128.Idx) (q : dot_S5000x5_S5x128_S5000x128_1_0_0_1_n_n.contr.Idx) :
    (dot_S5000x5_S5x128_S5000x128_1_0_0_1_n_n.lhsIdx i q 0).val = (i 0).val := by
  unfold DotDims.lhsIdx
  rw [dif_neg (show ¬(0 : Fin S5000x5.rank) ∈ dot_S5000x5_S5x128_S5000x128_1_0_0_1_n_n.lhsBatch by decide), dif_pos (show (0 : Fin S5000x5.rank) ∈ dot_S5000x5_S5x128_S5000x128_1_0_0_1_n_n.lhsNonContracting by decide)]
  rfl
/-- Along its columns it runs over the summation index. -/
theorem lhs_axis1 (i : S5000x128.Idx) (q : dot_S5000x5_S5x128_S5000x128_1_0_0_1_n_n.contr.Idx) :
    (dot_S5000x5_S5x128_S5000x128_1_0_0_1_n_n.lhsIdx i q 1).val = (q ⟨0, by decide⟩).val :=
  dot_S5000x5_S5x128_S5000x128_1_0_0_1_n_n.lhsIdx_val_of_single rfl i q
/-- Along the rows of the right factor it runs over the summation index. -/
theorem rhs_axis0 (i : S5000x128.Idx) (q : dot_S5000x5_S5x128_S5000x128_1_0_0_1_n_n.contr.Idx) :
    (dot_S5000x5_S5x128_S5000x128_1_0_0_1_n_n.rhsIdx i q 0).val = (q ⟨0, by decide⟩).val :=
  dot_S5000x5_S5x128_S5000x128_1_0_0_1_n_n.rhsIdx_val_of_single rfl i q
/-- Along its columns the product's index keeps its column. -/
theorem rhs_axis1 (i : S5000x128.Idx) (q : dot_S5000x5_S5x128_S5000x128_1_0_0_1_n_n.contr.Idx) :
    (dot_S5000x5_S5x128_S5000x128_1_0_0_1_n_n.rhsIdx i q 1).val = (i 1).val := by
  unfold DotDims.rhsIdx
  rw [dif_neg (show ¬(1 : Fin S5x128.rank) ∈ dot_S5000x5_S5x128_S5000x128_1_0_0_1_n_n.rhsBatch by decide), dif_pos (show (1 : Fin S5x128.rank) ∈ dot_S5000x5_S5x128_S5000x128_1_0_0_1_n_n.rhsNonContracting by decide)]
  rfl

/-- Row `i 0`, feature `k` of a feature block. -/
abbrev blkRow (i : S5000x128.Idx) (k : Fin 5) : S5000x5.Idx := fun a => match a with
  | ⟨0, _⟩ => ⟨(i 0).val, (i 0).isLt⟩
  | ⟨1, _⟩ => ⟨k.val, k.isLt⟩
/-- Feature `k`, column `i 1` of the weights. -/
abbrev blkCol (i : S5000x128.Idx) (k : Fin 5) : S5x128.Idx := fun a => match a with
  | ⟨0, _⟩ => ⟨k.val, k.isLt⟩
  | ⟨1, _⟩ => ⟨(i 1).val, (i 1).isLt⟩

/-- What one grid point stores, entry by entry: the sum over the five features of block row times weight column. -/
theorem pay_apply (x0 : FVec Ideal S5000x5 .f32) (x1 : FVec Ideal S5x128 .f32) (i : S5000x128.Idx) :
    k0_pay1 (F := Ideal) x0 x1 i = ∑ k : Fin 5, x0 (blkRow i k) * x1 (blkCol i k) := by
  unfold k0_pay1
  simp only [matmul]
  rw [Ideal.matmul_constant_zero_apply, ← Equiv.sum_comp (ValueIdx.contrEquiv1 dot_S5000x5_S5x128_S5000x128_1_0_0_1_n_n 5 rfl rfl).symm]
  refine Finset.sum_congr rfl fun k _ => ?_
  have hk := ValueIdx.contrEquiv1_symm_val dot_S5000x5_S5x128_S5000x128_1_0_0_1_n_n 5 rfl rfl k
  have el : dot_S5000x5_S5x128_S5000x128_1_0_0_1_n_n.lhsIdx i ((ValueIdx.contrEquiv1 dot_S5000x5_S5x128_S5000x128_1_0_0_1_n_n 5 rfl rfl).symm k) = blkRow i k := funext fun a => Fin.ext (by
    match a with
    | ⟨0, _⟩ => exact lhs_axis0 _ _
    | ⟨1, _⟩ => exact (lhs_axis1 _ _).trans hk)
  have er : dot_S5000x5_S5x128_S5000x128_1_0_0_1_n_n.rhsIdx i ((ValueIdx.contrEquiv1 dot_S5000x5_S5x128_S5000x128_1_0_0_1_n_n 5 rfl rfl).symm k) = blkCol i k := funext fun a => Fin.ext (by
    match a with
    | ⟨0, _⟩ => exact (rhs_axis0 _ _).trans hk
    | ⟨1, _⟩ => exact rhs_axis1 _ _)
  rw [el, er]
  rfl

/-! ## The whole product -/

/-- Row `i 0`, feature `k` of the feature matrix. -/
abbrev xRow (i : S100000x128.Idx) (k : Fin 5) : S100000x5.Idx := fun a => match a with
  | ⟨0, _⟩ => ⟨(i 0).val, (i 0).isLt⟩
  | ⟨1, _⟩ => ⟨k.val, k.isLt⟩
/-- Feature `k`, column `i 1` of the weights. -/
abbrev wCol (i : S100000x128.Idx) (k : Fin 5) : S5x128.Idx := fun a => match a with
  | ⟨0, _⟩ => ⟨k.val, k.isLt⟩
  | ⟨1, _⟩ => ⟨(i 1).val, (i 1).isLt⟩

/-- The matrix product of the node features with the first layer's weights. -/
def prod (x : (⟨S100000x5, .f32⟩ : BufTy).Contents (Elt Ideal)) (w : (⟨S5x128, .f32⟩ : BufTy).Contents (Elt Ideal)) :
    (⟨S100000x128, .f32⟩ : BufTy).Contents (Elt Ideal) :=
  fun i => ∑ k : Fin 5, x (xRow i k) * w (wCol i k)

variable (V : (c : Dev nD) → (b : Ref sig .tc) → Buf (Elt Ideal) ((c : Thread nD τ).loc b))

/-- Where each window's block sits at grid point `t`: the features and the result move down by one block of rows per
    point, the weights stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed_eq (c : Dev nD) (t : Fin cfg0.N) :
    (dat0 V c).flushed 2 t = ((cfg0.win 2).blk t).view.read (Elt Ideal) (prod (V c main_arg0) (V c main_arg2)) := by
  show (cfg0.win 2).cut (grid0.coords t) ((dat0 V c).after 2 t) = _
  rw [after0_2]
  unfold out0_2
  rw [View.canon_unit_zero zeroOff]
  simp only [View.ld_unit_zero (S := S5000x5) zeroOff, View.ld_unit_zero (S := S5x128) zeroOff]
  obtain ⟨e0, e1, e2, e3, e4, e5⟩ := idx_facts t
  funext j
  show k0_pay1 (F := Ideal) (iblk0 V c 0 t) (iblk0 V c 1 t) j = prod (V c main_arg0) (V c main_arg2) (((cfg0.win 2).blk t).view.emb j)
  rw [pay_apply]
  unfold prod
  refine Finset.sum_congr rfl fun k _ => ?_
  have h0 : iblk0 V c 0 t (blkRow j k) = V c main_arg0 (xRow (((cfg0.win 2).blk t).view.emb j) k) := by
    show V c main_arg0 (((cfg0.win 0).blk t).view.emb (blkRow j k)) = V c main_arg0 (xRow (((cfg0.win 2).blk t).view.emb j) k)
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 5 + 1 * k.val = k.val; omega
  have h1 : iblk0 V c 1 t (blkCol j k) = V c main_arg2 (wCol (((cfg0.win 2).blk t).view.emb j) k) := by
    show V c main_arg2 (((cfg0.win 1).blk t).view.emb (blkCol j k)) = V c main_arg2 (wCol (((cfg0.win 2).blk t).view.emb j) k)
    refine congrArg (V c main_arg2) (funext fun a => Fin.ext ?_)
    match a with
    | ⟨0, _⟩ => show win0_1.index t (0 : Fin 2) * 5 + 1 * k.val = k.val; omega
    | ⟨1, _⟩ => show win0_1.index t (1 : Fin 2) * 128 + 1 * (j 1).val = win0_2.index t (1 : Fin 2) * 128 + 1 * (j 1).val; omega
  rw [h0, h1]

/-- An index of the result lies in point `t`'s block iff each coordinate lies in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Row `r` lies in the block of point `r / 5000`: the twenty blocks tile the result. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨e0, e1, e2, e3, e4, e5⟩ := idx_facts t
  have q0 : win0_2.index t (0 : Fin 2) = (i 0).val / 5000 := e4
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the region its result array is the matrix product of the two arrays it was entered with. -/
theorem array_eq (c : Dev nD) :
    (dat0 V c).arrAt 2 cfg0.N = prod (V c main_arg0) (V c main_arg2) :=
  (dat0 V c).arrAt_eq_of_cover 2 (prod (V c main_arg0) (V c main_arg2)) (fun t _ => flushed_eq V c t) cover

end Cert.KernelIdeal.Linear1

end
-- ==== Proof.Linear2.lean ====
/-
  The second layer's linear transform as one whole array.

  The region walks the 100000 node rows in twenty blocks of 5000. At each block it multiplies the block of the
  hidden activations `a` (5000 x 128) by the whole weight column `w` (128 x 1) into a zero accumulator, so the one
  entry of block row r is the sum over the 128 hidden features k of a(r, k) * w(k, 0); the change of float format
  before the product is the identity on the extended reals. Block t lands on rows 5000 t .. 5000 t + 4999 of the
  result, the twenty blocks tile it, and therefore the result array is the matrix product a * w.
-/
import proofs.«173015_j60052232732743_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear2

open Cert.KernelIdeal Cert.KernelIdeal.Gen
open Idealize.ShloMosaic Idealize.ShloMosaic.TcCoe Idealize.SL.Sem
open Idealize.ShloMosaic.Pipeline (Dat)

theorem zeroOff : (![0, 0] : Fin 2 → Nat) = fun _ => 0 := funext fun a => by fin_cases a <;> rfl

/-! ## The block product at an index -/

/-- Along the rows of the left factor the product's index keeps its row. -/
theorem lhs_axis0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- Along its columns it runs over the summation index. -/
theorem lhs_axis1 (i : S5000x1.Idx) (q : dot_S5000x128_S128x1_S5000x1_1_0_0_1_n_n.contr.Idx) :
    (dot_S5000x128_S128x1_S5000x1_1_0_0_1_n_n.lhsIdx i q 1).val = (q ⟨0, by decide⟩).val :=
  dot_S5000x128_S128x1_S5000x1_1_0_0_1_n_n.lhsIdx_val_of_single rfl i q
/-- Along the rows of the right factor it runs over the summation index. -/
theorem rhs_axis0 (i : S5000x1.Idx) (q : dot_S5000x128_S128x1_S5000x1_1_0_0_1_n_n.contr.Idx) :
    (dot_S5000x128_S128x1_S5000x1_1_0_0_1_n_n.rhsIdx i q 0).val = (q ⟨0, by decide⟩).val :=
  dot_S5000x128_S128x1_S5000x1_1_0_0_1_n_n.rhsIdx_val_of_single rfl i q
/-- Along its one column the product's index keeps its column. -/
theorem rhs_axis1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- Row `i 0`, hidden feature `k` of an activation block. -/
abbrev blkRow (i : S5000x1.Idx) (k : Fin 128) : S5000x128.Idx := fun a => match a with
  | ⟨0, _⟩ => ⟨(i 0).val, (i 0).isLt⟩
  | ⟨1, _⟩ => ⟨k.val, k.isLt⟩
/-- Hidden feature `k` of the weight column. -/
abbrev blkCol (i : S5000x1.Idx) (k : Fin 128) : S128x1.Idx := fun a => match a with
  | ⟨0, _⟩ => ⟨k.val, k.isLt⟩
  | ⟨1, _⟩ => ⟨(i 1).val, (i 1).isLt⟩

/-- What one grid point stores, entry by entry: the sum over the 128 hidden features of block row times weight. -/
theorem pay_apply (x0 : FVec Ideal S5000x128 .f32) (x1 : FVec Ideal S128x1 .f32) (i : S5000x1.Idx) :
    k2_pay1 (F := Ideal) x0 x1 i = ∑ k : Fin 128, x0 (blkRow i k) * x1 (blkCol i k) := by
  unfold k2_pay1
  simp only [matmul, shapeCast_self]
  rw [Ideal.matmul_constant_zero_apply, ← Equiv.sum_comp (ValueIdx.contrEquiv1 dot_S5000x128_S128x1_S5000x1_1_0_0_1_n_n 128 rfl rfl).symm]
  refine Finset.sum_congr rfl fun k _ => ?_
  have hk := ValueIdx.contrEquiv1_symm_val dot_S5000x128_S128x1_S5000x1_1_0_0_1_n_n 128 rfl rfl k
  have el : dot_S5000x128_S128x1_S5000x1_1_0_0_1_n_n.lhsIdx i ((ValueIdx.contrEquiv1 dot_S5000x128_S128x1_S5000x1_1_0_0_1_n_n 128 rfl rfl).symm k) = blkRow i k := funext fun a => Fin.ext (by
    match a with
    | ⟨0, _⟩ => exact lhs_axis0 _ _
    | ⟨1, _⟩ => exact (lhs_axis1 _ _).trans hk)
  have er : dot_S5000x128_S128x1_S5000x1_1_0_0_1_n_n.rhsIdx i ((ValueIdx.contrEquiv1 dot_S5000x128_S128x1_S5000x1_1_0_0_1_n_n 128 rfl rfl).symm k) = blkCol i k := funext fun a => Fin.ext (by
    match a with
    | ⟨0, _⟩ => exact (rhs_axis0 _ _).trans hk
    | ⟨1, _⟩ => exact rhs_axis1 _ _)
  rw [el, er]
  rfl

/-! ## The whole product -/

/-- Row `i 0`, hidden feature `k` of the activations. -/
abbrev aRow (i : S100000x1.Idx) (k : Fin 128) : S100000x128.Idx := fun a => match a with
  | ⟨0, _⟩ => ⟨(i 0).val, (i 0).isLt⟩
  | ⟨1, _⟩ => ⟨k.val, k.isLt⟩
/-- Hidden feature `k` of the weight column. -/
abbrev wCol (i : S100000x1.Idx) (k : Fin 128) : S128x1.Idx := fun a => match a with
  | ⟨0, _⟩ => ⟨k.val, k.isLt⟩
  | ⟨1, _⟩ => ⟨(i 1).val, (i 1).isLt⟩

/-- The matrix product of the hidden activations with the second layer's weights. -/
def prod (a : (⟨S100000x128, .f32⟩ : BufTy).Contents (Elt Ideal)) (w : (⟨S128x1, .f32⟩ : BufTy).Contents (Elt Ideal)) :
    (⟨S100000x1, .f32⟩ : BufTy).Contents (Elt Ideal) :=
  fun i => ∑ k : Fin 128, a (aRow i k) * w (wCol i k)

variable (V : (c : Dev nD) → (b : Ref sig .tc) → Buf (Elt Ideal) ((c : Thread nD τ).loc b))

/-- Where each window's block sits at grid point `t`: the activations and the result move down by one block of rows
    per point, the weights stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is block `t` of the whole product of the arrays the region finds. -/
theorem flushed_eq (c : Dev nD) (t : Fin cfg2.N) :
    (dat2 V c).flushed 2 t = ((cfg2.win 2).blk t).view.read (Elt Ideal) (prod (V c main_v43) (V c main_arg4)) := by
  show (cfg2.win 2).cut (grid2.coords t) ((dat2 V c).after 2 t) = _
  rw [after2_2]
  unfold out2_2
  rw [View.canon_unit_zero zeroOff]
  simp only [View.ld_unit_zero (S := S5000x128) zeroOff, View.ld_unit_zero (S := S128x1) zeroOff]
  obtain ⟨e0, e1, e2, e3, e4, e5⟩ := idx_facts t
  funext j
  show k2_pay1 (F := Ideal) (iblk2 V c 0 t) (iblk2 V c 1 t) j = prod (V c main_v43) (V c main_arg4) (((cfg2.win 2).blk t).view.emb j)
  rw [pay_apply]
  unfold prod
  refine Finset.sum_congr rfl fun k _ => ?_
  have h0 : iblk2 V c 0 t (blkRow j k) = V c main_v43 (aRow (((cfg2.win 2).blk t).view.emb j) k) := by
    show V c main_v43 (((cfg2.win 0).blk t).view.emb (blkRow j k)) = V c main_v43 (aRow (((cfg2.win 2).blk t).view.emb j) k)
    refine congrArg (V c main_v43) (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  have h1 : iblk2 V c 1 t (blkCol j k) = V c main_arg4 (wCol (((cfg2.win 2).blk t).view.emb j) k) := by
    show V c main_arg4 (((cfg2.win 1).blk t).view.emb (blkCol j k)) = V c main_arg4 (wCol (((cfg2.win 2).blk t).view.emb j) k)
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 1 + 1 * (j 1).val = win2_2.index t (1 : Fin 2) * 1 + 1 * (j 1).val; omega
  rw [h0, h1]

/-- An index of the result lies in point `t`'s block iff each coordinate lies in the block's range on its axis. -/
theorem mem_blk (t : Fin cfg2.N) (i : S100000x1.Idx) :
    i ∈ ((cfg2.win 2).blk t).view.set ↔ ∀ a : Fin 2, win2_2.index t a * S5000x1.size a ≤ (i a).val ∧ (i a).val < win2_2.index t a * S5000x1.size a + S5000x1.size a := by
  show i ∈ ((View.whole main_v44).slice (win2_2.rect t)).set ↔ _
  rw [View.set_slice_whole, Rect.mem_set_unit]
  exact Iff.rfl

/-- Row `r` lies in the block of point `r / 5000`: the twenty blocks tile the result. -/
theorem cover (i : S100000x1.Idx) :
    ∃ t : Fin cfg2.N, (cfg2.win 2).flush t = true ∧ i ∈ ((cfg2.win 2).blk t).view.set := by
  have hi0 : (i 0).val < 100000 := (i 0).isLt
  have hi1 : (i 1).val < 1 := (i 1).isLt
  have hN : cfg2.N = 20 := N_2
  let t : Fin cfg2.N := ⟨(i 0).val / 5000, by rw [hN]; omega⟩
  obtain ⟨e0, e1, e2, e3, e4, e5⟩ := idx_facts t
  have q0 : win2_2.index t (0 : Fin 2) = (i 0).val / 5000 := e4
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 1 ≤ (i 1).val ∧ (i 1).val < win2_2.index t (1 : Fin 2) * 1 + 1; omega

/-- After the region its result array is the matrix product of the two arrays it was entered with. -/
theorem array_eq (c : Dev nD) :
    (dat2 V c).arrAt 2 cfg2.N = prod (V c main_v43) (V c main_arg4) :=
  (dat2 V c).arrAt_eq_of_cover 2 (prod (V c main_v43) (V c main_arg4)) (fun t _ => flushed_eq V c t) cover

end Cert.KernelIdeal.Linear2

end
-- ==== Proof.Combine1.lean ====
/-
  The first layer's combine step as one whole array.

  The region walks the 100000 node rows in twenty blocks of 5000. At each block it forms, entry by entry,
  max ((agg + h * d) + b, 0): `h` the layer's linear transform and `agg` its aggregate over incoming edges (both
  5000 x 128 blocks), `d` the squared inverse square-root degree of the row's node (a 5000 x 1 column, spread over
  the 128 columns) and `b` the bias (a 1 x 128 row, spread over the rows). Block t lands on rows 5000 t .. 5000 t + 4999
  of the result and the twenty blocks tile it, so the result array is that expression of the four whole arrays.
-/
import proofs.«173015_j60052232732743_1_alg».proof.Proof.Gen.KernelIdeal.Frame
import Idealize.ShloMosaic.Lib.Pipeline.Value
import Idealize.ShloMosaic.Lib.ValueIdx

set_option maxRecDepth 16384

noncomputable section

namespace Cert.KernelIdeal.Combine1

open Cert.KernelIdeal Cert.KernelIdeal.Gen
open Idealize.ShloMosaic Idealize.ShloMosaic.TcCoe Idealize.SL.Sem
open Idealize.ShloMosaic.Pipeline (Dat)

theorem zeroOff : (![0, 0] : Fin 2 → Nat) = fun _ => 0 := funext fun a => by fin_cases a <;> rfl

/-! ## One block's entries -/

/-- The degree factor of block row `j 0`. -/
abbrev blkD (j : S5000x128.Idx) : S5000x1.Idx := fun a => match a with
  | ⟨0, _⟩ => ⟨(j 0).val, (j 0).isLt⟩
  | ⟨1, _⟩ => ⟨0, Nat.one_pos⟩
/-- The bias of column `j 1`. -/
abbrev blkB (j : S5000x128.Idx) : S1x128.Idx := fun a => match a with
  | ⟨0, _⟩ => ⟨0, Nat.one_pos⟩
  | ⟨1, _⟩ => ⟨(j 1).val, (j 1).isLt⟩

/-- What one grid point stores, entry by entry. -/
theorem pay_apply (v0 v2 : FVec Ideal S5000x128 .f32) (v4 : FVec Ideal S5000x1 .f32) (v9 : FVec Ideal S1x128 .f32) (j : S5000x128.Idx) :
    k1_pay1 (F := Ideal) v0 v2 v4 v9 j
      = FloatOps.maximumf (FloatOps.addf (FloatOps.addf (v0 j) (FloatOps.mulf (v2 j) (v4 (blkD j)))) (v9 (blkB j))) (FloatOps.ofBits .f32 0x00000000#32) := by
  unfold k1_pay1
  simp only [shapeCast_self]
  show FloatOps.maximumf (FloatOps.addf (FloatOps.addf (v0 j) (FloatOps.mulf (v2 j) (broadcastTo S5000x128 v4 broadcasts_S5000x1_S5000x128 j))) (broadcastTo S5000x128 v9 broadcasts_S1x128_S5000x128 j)) (FloatOps.ofBits .f32 0x00000000#32) = _
  rw [broadcastTo_apply v4 broadcasts_S5000x1_S5000x128 j (blkD j) (fun a => match a with
      | ⟨0, _⟩ => by show (j 0).val = if (5000 : Nat) = 1 then 0 else (j 0).val; rw [if_neg (by decide)]
      | ⟨1, _⟩ => by show 0 = if (1 : Nat) = 1 then 0 else (j 1).val; rw [if_pos rfl]),
    broadcastTo_apply v9 broadcasts_S1x128_S5000x128 j (blkB j) (fun a => match a with
      | ⟨0, _⟩ => by show 0 = if (1 : Nat) = 1 then 0 else (j 0).val; rw [if_pos rfl]
      | ⟨1, _⟩ => by show (j 1).val = if (128 : Nat) = 1 then 0 else (j 1).val; rw [if_neg (by decide)])]

/-! ## The whole array -/

/-- The degree factor of node `i 0`. -/
abbrev rowD (i : S100000x128.Idx) : S100000x1.Idx := fun a => match a with
  | ⟨0, _⟩ => ⟨(i 0).val, (i 0).isLt⟩
  | ⟨1, _⟩ => ⟨0, Nat.one_pos⟩
/-- The bias of column `i 1`. -/
abbrev colB (i : S100000x128.Idx) : S1x128.Idx := fun a => match a with
  | ⟨0, _⟩ => ⟨0, Nat.one_pos⟩
  | ⟨1, _⟩ => ⟨(i 1).val, (i 1).isLt⟩

/-- The layer's output before the next linear transform: aggregate plus self-loop term plus bias, cut below at zero. -/
def out (h agg : (⟨S100000x128, .f32⟩ : BufTy).Contents (Elt Ideal)) (d : (⟨S100000x1, .f32⟩ : BufTy).Contents (Elt Ideal))
    (b : (⟨S1x128, .f32⟩ : BufTy).Contents (Elt Ideal)) : (⟨S100000x128, .f32⟩ : BufTy).Contents (Elt Ideal) :=
  fun i => FloatOps.maximumf (F := Ideal) (FloatOps.addf (F := Ideal) (FloatOps.addf (F := Ideal) (agg i) (FloatOps.mulf (F := Ideal) (h i) (d (rowD i)))) (b (colB i))) (FloatOps.ofBits (F := Ideal) .f32 0x00000000#32)

variable (V : (c : Dev nD) → (b : Ref sig .tc) → Buf (Elt Ideal) ((c : Thread nD τ).loc b))

/-- Where each window's block sits at grid point `t`: everything but the bias moves down one block of rows per point. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of the whole expression of the arrays the region finds. -/
theorem flushed_eq (c : Dev nD) (t : Fin cfg1.N) :
    (dat1 V c).flushed 4 t = ((cfg1.win 4).blk t).view.read (Elt Ideal) (out (V c main_v29) (V c main_v41) (V c main_v12) (V c main_v42)) := by
  show (cfg1.win 4).cut (grid1.coords t) ((dat1 V c).after 4 t) = _
  rw [after1_4]
  unfold out1_4
  rw [View.canon_unit_zero zeroOff]
  simp only [View.ld_unit_zero (S := S5000x128) zeroOff, View.ld_unit_zero (S := S5000x1) zeroOff, View.ld_unit_zero (S := S1x128) zeroOff]
  obtain ⟨e0, e1, e2, e3, e4, e5, e6, e7, e8, e9⟩ := idx_facts t
  funext j
  show k1_pay1 (F := Ideal) (iblk1 V c 1 t) (iblk1 V c 0 t) (iblk1 V c 2 t) (iblk1 V c 3 t) j
    = out (V c main_v29) (V c main_v41) (V c main_v12) (V c main_v42) (((cfg1.win 4).blk t).view.emb j)
  rw [pay_apply]
  unfold out
  have ha : iblk1 V c 1 t j = V c main_v41 (((cfg1.win 4).blk t).view.emb j) := by
    show V c main_v41 (((cfg1.win 1).blk t).view.emb j) = V c main_v41 (((cfg1.win 4).blk t).view.emb j)
    refine congrArg (V c main_v41) (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 128 + 1 * (j 1).val = win1_4.index t (1 : Fin 2) * 128 + 1 * (j 1).val; omega
  have hh : iblk1 V c 0 t j = V c main_v29 (((cfg1.win 4).blk t).view.emb j) := by
    show V c main_v29 (((cfg1.win 0).blk t).view.emb j) = V c main_v29 (((cfg1.win 4).blk t).view.emb j)
    refine congrArg (V c main_v29) (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 128 + 1 * (j 1).val = win1_4.index t (1 : Fin 2) * 128 + 1 * (j 1).val; omega
  have hd : iblk1 V c 2 t (blkD j) = V c main_v12 (rowD (((cfg1.win 4).blk t).view.emb j)) := by
    show V c main_v12 (((cfg1.win 2).blk t).view.emb (blkD j)) = V c main_v12 (rowD (((cfg1.win 4).blk t).view.emb j))
    refine congrArg (V c main_v12) (funext fun a => Fin.ext ?_)
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have hb : iblk1 V c 3 t (blkB j) = V c main_v42 (colB (((cfg1.win 4).blk t).view.emb j)) := by
    show V c main_v42 (((cfg1.win 3).blk t).view.emb (blkB j)) = V c main_v42 (colB (((cfg1.win 4).blk t).view.emb j))
    refine congrArg (V c main_v42) (funext fun a => Fin.ext ?_)
    match a with
    | ⟨0, _⟩ => show win1_3.index t (0 : Fin 2) * 1 + 1 * 0 = 0; omega
    | ⟨1, _⟩ => show win1_3.index t (1 : Fin 2) * 128 + 1 * (j 1).val = win1_4.index t (1 : Fin 2) * 128 + 1 * (j 1).val; omega
  rw [ha, hh, hd, hb]

/-- An index of the result lies in point `t`'s block iff each coordinate lies in the block's range on its axis. -/
theorem mem_blk (t : Fin cfg1.N) (i : S100000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v43).slice (win1_4.rect t)).set ↔ _
  rw [View.set_slice_whole, Rect.mem_set_unit]
  exact Iff.rfl

/-- Row `r` lies in the block of point `r / 5000`: the twenty blocks tile the result. -/
theorem cover (i : S100000x128.Idx) :
    ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5, e6, e7, e8, e9⟩ := idx_facts t
  have q0 : win1_4.index t (0 : Fin 2) = (i 0).val / 5000 := e8
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- After the region its result array is the combine of the four arrays it was entered with. -/
theorem array_eq (c : Dev nD) :
    (dat1 V c).arrAt 4 cfg1.N = out (V c main_v29) (V c main_v41) (V c main_v12) (V c main_v42) :=
  (dat1 V c).arrAt_eq_of_cover 4 (out (V c main_v29) (V c main_v41) (V c main_v12) (V c main_v42)) (fun t _ => flushed_eq V c t) cover

end Cert.KernelIdeal.Combine1

end
-- ==== Proof.Combine2.lean ====
/-
  The second layer's combine step as one whole array: the program's result.

  The region walks the 100000 node rows in twenty blocks of 5000. At each block it forms, entry by entry,
  (agg + h * d) + b: `h` the layer's linear transform, `agg` its aggregate over incoming edges and `d` the squared
  inverse square-root degree of the row's node (all 5000 x 1 columns), and `b` the one bias (1 x 1, spread over the
  rows). Block t lands on rows 5000 t .. 5000 t + 4999 of the result and the twenty blocks tile it, so the result array
  is that expression of the four whole arrays.
-/
import proofs.«173015_j60052232732743_1_alg».proof.Proof.Gen.KernelIdeal.Frame
import Idealize.ShloMosaic.Lib.Pipeline.Value
import Idealize.ShloMosaic.Lib.ValueIdx

set_option maxRecDepth 16384

noncomputable section

namespace Cert.KernelIdeal.Combine2

open Cert.KernelIdeal Cert.KernelIdeal.Gen
open Idealize.ShloMosaic Idealize.ShloMosaic.TcCoe Idealize.SL.Sem
open Idealize.ShloMosaic.Pipeline (Dat)

theorem zeroOff : (![0, 0] : Fin 2 → Nat) = fun _ => 0 := funext fun a => by fin_cases a <;> rfl

/-! ## One block's entries -/

/-- The one entry of the bias, whatever the row. -/
abbrev blkB (j : S5000x1.Idx) : S1x1.Idx := fun a => match a with
  | ⟨0, _⟩ => ⟨0, Nat.one_pos⟩
  | ⟨1, _⟩ => ⟨0, Nat.one_pos⟩

/-- What one grid point stores, entry by entry. -/
theorem pay_apply (v0 v2 v4 : FVec Ideal S5000x1 .f32) (v8 : FVec Ideal S1x1 .f32) (j : S5000x1.Idx) :
    k3_pay1 (F := Ideal) v0 v2 v4 v8 j
      = FloatOps.addf (FloatOps.addf (v0 j) (FloatOps.mulf (v2 j) (v4 j))) (v8 (blkB j)) := by
  unfold k3_pay1
  simp only [shapeCast_self]
  show FloatOps.addf (FloatOps.addf (v0 j) (FloatOps.mulf (v2 j) (v4 j))) (broadcastTo S5000x1 v8 broadcasts_S1x1_S5000x1 j) = _
  rw [broadcastTo_apply v8 broadcasts_S1x1_S5000x1 j (blkB j) (fun a => match a with
      | ⟨0, _⟩ => by show 0 = if (1 : Nat) = 1 then 0 else (j 0).val; rw [if_pos rfl]
      | ⟨1, _⟩ => by show 0 = if (1 : Nat) = 1 then 0 else (j 1).val; rw [if_pos rfl])]

/-! ## The whole array -/

/-- The one entry of the bias, whatever the node. -/
abbrev unitB (i : S100000x1.Idx) : S1x1.Idx := fun a => match a with
  | ⟨0, _⟩ => ⟨0, Nat.one_pos⟩
  | ⟨1, _⟩ => ⟨0, Nat.one_pos⟩

/-- The network's output: aggregate plus self-loop term plus bias. -/
def out (h agg d : (⟨S100000x1, .f32⟩ : BufTy).Contents (Elt Ideal)) (b : (⟨S1x1, .f32⟩ : BufTy).Contents (Elt Ideal)) :
    (⟨S100000x1, .f32⟩ : BufTy).Contents (Elt Ideal) :=
  fun i => FloatOps.addf (F := Ideal) (φ := .f32) (FloatOps.addf (F := Ideal) (φ := .f32) (agg i) (FloatOps.mulf (F := Ideal) (φ := .f32) (h i) (d i))) (b (unitB i))

variable (V : (c : Dev nD) → (b : Ref sig .tc) → Buf (Elt Ideal) ((c : Thread nD τ).loc b))

/-- Where each window's block sits at grid point `t`: everything but the bias moves down one block of rows per point. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- What point `t` writes back is block `t` of the whole expression of the arrays the region finds. -/
theorem flushed_eq (c : Dev nD) (t : Fin cfg3.N) :
    (dat3 V c).flushed 4 t = ((cfg3.win 4).blk t).view.read (Elt Ideal) (out (V c main_v44) (V c main_v55) (V c main_v12) (V c main_v56)) := by
  show (cfg3.win 4).cut (grid3.coords t) ((dat3 V c).after 4 t) = _
  rw [after3_4]
  unfold out3_4
  rw [View.canon_unit_zero zeroOff]
  simp only [View.ld_unit_zero (S := S5000x1) zeroOff, View.ld_unit_zero (S := S1x1) zeroOff]
  obtain ⟨e0, e1, e2, e3, e4, e5, e6, e7, e8, e9⟩ := idx_facts t
  funext j
  show k3_pay1 (F := Ideal) (iblk3 V c 1 t) (iblk3 V c 0 t) (iblk3 V c 2 t) (iblk3 V c 3 t) j
    = out (V c main_v44) (V c main_v55) (V c main_v12) (V c main_v56) (((cfg3.win 4).blk t).view.emb j)
  rw [pay_apply]
  unfold out
  have ha : iblk3 V c 1 t j = V c main_v55 (((cfg3.win 4).blk t).view.emb j) := by
    show V c main_v55 (((cfg3.win 1).blk t).view.emb j) = V c main_v55 (((cfg3.win 4).blk t).view.emb j)
    refine congrArg (V c main_v55) (funext fun a => Fin.ext ?_)
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * (j 1).val = win3_4.index t (1 : Fin 2) * 1 + 1 * (j 1).val; omega
  have hh : iblk3 V c 0 t j = V c main_v44 (((cfg3.win 4).blk t).view.emb j) := by
    show V c main_v44 (((cfg3.win 0).blk t).view.emb j) = V c main_v44 (((cfg3.win 4).blk t).view.emb j)
    refine congrArg (V c main_v44) (funext fun a => Fin.ext ?_)
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 1 + 1 * (j 1).val = win3_4.index t (1 : Fin 2) * 1 + 1 * (j 1).val; omega
  have hd : iblk3 V c 2 t j = V c main_v12 (((cfg3.win 4).blk t).view.emb j) := by
    show V c main_v12 (((cfg3.win 2).blk t).view.emb j) = V c main_v12 (((cfg3.win 4).blk t).view.emb j)
    refine congrArg (V c main_v12) (funext fun a => Fin.ext ?_)
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * (j 1).val = win3_4.index t (1 : Fin 2) * 1 + 1 * (j 1).val; omega
  have hb : iblk3 V c 3 t (blkB j) = V c main_v56 (unitB (((cfg3.win 4).blk t).view.emb j)) := by
    show V c main_v56 (((cfg3.win 3).blk t).view.emb (blkB j)) = V c main_v56 (unitB (((cfg3.win 4).blk t).view.emb j))
    refine congrArg (V c main_v56) (funext fun a => Fin.ext ?_)
    match a with
    | ⟨0, _⟩ => show win3_3.index t (0 : Fin 2) * 1 + 1 * 0 = 0; omega
    | ⟨1, _⟩ => show win3_3.index t (1 : Fin 2) * 1 + 1 * 0 = 0; omega
  rw [ha, hh, hd, hb]

/-- An index of the result lies in point `t`'s block iff each coordinate lies in the block's range on its axis. -/
theorem mem_blk (t : Fin cfg3.N) (i : S100000x1.Idx) :
    i ∈ ((cfg3.win 4).blk t).view.set ↔ ∀ a : Fin 2, win3_4.index t a * S5000x1.size a ≤ (i a).val ∧ (i a).val < win3_4.index t a * S5000x1.size a + S5000x1.size a := by
  show i ∈ ((View.whole main_v57).slice (win3_4.rect t)).set ↔ _
  rw [View.set_slice_whole, Rect.mem_set_unit]
  exact Iff.rfl

/-- Row `r` lies in the block of point `r / 5000`: the twenty blocks tile the result. -/
theorem cover (i : S100000x1.Idx) :
    ∃ t : Fin cfg3.N, (cfg3.win 4).flush t = true ∧ i ∈ ((cfg3.win 4).blk t).view.set := by
  have hi0 : (i 0).val < 100000 := (i 0).isLt
  have hi1 : (i 1).val < 1 := (i 1).isLt
  have hN : cfg3.N = 20 := N_3
  let t : Fin cfg3.N := ⟨(i 0).val / 5000, by rw [hN]; omega⟩
  obtain ⟨e0, e1, e2, e3, e4, e5, e6, e7, e8, e9⟩ := idx_facts t
  have q0 : win3_4.index t (0 : Fin 2) = (i 0).val / 5000 := e8
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 1 ≤ (i 1).val ∧ (i 1).val < win3_4.index t (1 : Fin 2) * 1 + 1; omega

/-- After the region its result array is the combine of the four arrays it was entered with. -/
theorem array_eq (c : Dev nD) :
    (dat3 V c).arrAt 4 cfg3.N = out (V c main_v44) (V c main_v55) (V c main_v12) (V c main_v56) :=
  (dat3 V c).arrAt_eq_of_cover 4 (out (V c main_v44) (V c main_v55) (V c main_v12) (V c main_v56)) (fun t _ => flushed_eq V c t) cover

end Cert.KernelIdeal.Combine2

end
-- ==== Proof.RegionStages.lean ====
/-
  Each region's whole array is one of the reference's stages.

  Read at an index, the reference's matrix products are the same sums over the contracted axis as the regions'
  block products, and its combine steps are the same entrywise expressions: the squared inverse square-root degree
  read at the node's row (spread over the columns), the bias at the column (spread over the rows), the hidden layer
  cut below at zero.
-/
import proofs.«173015_j60052232732743_1_alg».proof.Proof.Gen.ReferenceIdeal.Read
import proofs.«173015_j60052232732743_1_alg».proof.Proof.Linear1
import proofs.«173015_j60052232732743_1_alg».proof.Proof.Linear2
import proofs.«173015_j60052232732743_1_alg».proof.Proof.Combine1
import proofs.«173015_j60052232732743_1_alg».proof.Proof.Combine2

set_option maxRecDepth 16384

noncomputable section

namespace Cert.RegionStages

open Cert.ReferenceIdeal.Read
open Idealize.ShloMosaic Idealize.ShloMosaic.TcCoe

variable (x : (⟨Cert.ReferenceIdeal.S100000x5, .f32⟩ : BufTy).Contents (Elt Ideal)) (ei : (⟨Cert.ReferenceIdeal.S2x1600000, .i32⟩ : BufTy).Contents (Elt Ideal))
  (w1 : (⟨Cert.ReferenceIdeal.S5x128, .f32⟩ : BufTy).Contents (Elt Ideal)) (b1 : (⟨Cert.ReferenceIdeal.S128, .f32⟩ : BufTy).Contents (Elt Ideal))
  (w2 : (⟨Cert.ReferenceIdeal.S128x1, .f32⟩ : BufTy).Contents (Elt Ideal)) (b2 : (⟨Cert.ReferenceIdeal.S1, .f32⟩ : BufTy).Contents (Elt Ideal))

/-- The first region's product is the reference's first `dot_general`. -/
theorem linear1 : Cert.KernelIdeal.Linear1.prod x w1 = val_main_v4 (F := Ideal) x w1 := by
  funext i
  rw [val_main_v4_apply]
  rfl

/-- The second region's combine of the reference's stages is the reference's hidden layer after its relu. -/
theorem combine1 : Cert.KernelIdeal.Combine1.out (val_main_v4 (F := Ideal) x w1) (val_main_v39 (F := Ideal) x ei w1) (val_main_v41 (F := Ideal) ei) (val_main_v45 (F := Ideal) b1)
    = val_main_v48 (F := Ideal) x ei w1 b1 := by
  funext i
  rw [val_main_v48_apply, val_main_v47_apply, val_main_v44_apply, val_main_v43_apply, val_main_v42_apply, val_main_v46_apply,
    val_main_call0_v0_apply, val_main_call0_cst_apply]
  rfl

/-- The third region's product of the reference's hidden layer is the reference's second `dot_general`. -/
theorem linear2 : Cert.KernelIdeal.Linear2.prod (val_main_v48 (F := Ideal) x ei w1 b1) w2 = val_main_v49 (F := Ideal) x ei w1 b1 w2 := by
  funext i
  rw [val_main_v49_apply]
  rfl

/-- The fourth region's combine of the reference's stages is the reference's result. -/
theorem combine2 : Cert.KernelIdeal.Combine2.out (val_main_v49 (F := Ideal) x ei w1 b1 w2) (val_main_v83 (F := Ideal) x ei w1 b1 w2) (val_main_v85 (F := Ideal) ei) (val_main_v88 (F := Ideal) b2)
    = val_main_v90 (F := Ideal) x ei w1 b1 w2 b2 := by
  funext i
  rw [val_main_v90_apply, val_main_v87_apply, val_main_v86_apply, val_main_v89_apply]
  rfl

end Cert.RegionStages

end
-- ==== Proof.Assembly.lean ====
/-
  The kernel program's result, stage by stage, is the reference's.

  From the launch memory through the seven boundaries of the program (a host stretch, the first region, a host
  stretch, the second and the third region, a host stretch, the fourth region) each buffer a later step reads holds
  one of the reference's stages of the six argument arrays: the edge endpoints, the column of squared inverse
  square-root degrees and the column of edge coefficients after the first stretch; the first linear transform after
  the first region; its aggregate and the bias row after the second stretch; the hidden layer after the second region;
  the second linear transform after the third; its aggregate and the bias after the last stretch; and after the fourth
  region the reference's result. A region leaves every buffer but its own arrays as it found it, a host stretch every
  buffer it does not write.
-/
import proofs.«173015_j60052232732743_1_alg».proof.Proof.KernelRun
import proofs.«173015_j60052232732743_1_alg».proof.Proof.HostRead
import proofs.«173015_j60052232732743_1_alg».proof.Proof.Layout
import proofs.«173015_j60052232732743_1_alg».proof.Proof.RegionStages

set_option maxRecDepth 16384

noncomputable section

namespace Cert.Assembly

open Cert.KernelIdeal Cert.KernelIdeal.Gen
open Cert.ReferenceIdeal.Read
open Idealize.ShloMosaic Idealize.ShloMosaic.TcCoe Idealize.SL.Sem

variable (m : (ℓ : Loc nD τ sig) → Buf (Elt Ideal) ℓ) (ρ : Dev nD → PrngReg) (c : Dev nD)

/-! ## The six argument arrays on core `c` -/

abbrev feat : (⟨Cert.ReferenceIdeal.S100000x5, .f32⟩ : BufTy).Contents (Elt Ideal) := m ((c : Thread nD τ).loc main_arg0)
abbrev edges : (⟨Cert.ReferenceIdeal.S2x1600000, .i32⟩ : BufTy).Contents (Elt Ideal) := m ((c : Thread nD τ).loc main_arg1)
abbrev weight1 : (⟨Cert.ReferenceIdeal.S5x128, .f32⟩ : BufTy).Contents (Elt Ideal) := m ((c : Thread nD τ).loc main_arg2)
abbrev bias1 : (⟨Cert.ReferenceIdeal.S128, .f32⟩ : BufTy).Contents (Elt Ideal) := m ((c : Thread nD τ).loc main_arg3)
abbrev weight2 : (⟨Cert.ReferenceIdeal.S128x1, .f32⟩ : BufTy).Contents (Elt Ideal) := m ((c : Thread nD τ).loc main_arg4)
abbrev bias2 : (⟨Cert.ReferenceIdeal.S1, .f32⟩ : BufTy).Contents (Elt Ideal) := m ((c : Thread nD τ).loc main_arg5)

/-! ## After the first host stretch -/

theorem src1 : W1 m ρ c (Proc.devRef .tc main_v1) = val_main_v1 (F := Ideal) (edges m c) := HostRead.first_src (W0 m ρ c)
theorem dst1 : W1 m ρ c (Proc.devRef .tc main_v3) = val_main_v3 (F := Ideal) (edges m c) := HostRead.first_dst (W0 m ρ c)
theorem dinvSq1 : W1 m ρ c (Proc.devRef .tc main_v12) = val_main_v41 (F := Ideal) (edges m c) :=
  (HostRead.first_dinv2 (W0 m ρ c)).trans (Layout.column_100000 _)
theorem coef1 : W1 m ρ c (Proc.devRef .tc main_v28) = val_main_v34 (F := Ideal) (edges m c) :=
  (HostRead.first_coef (W0 m ρ c)).trans (Layout.column_1600000 _)
theorem feat1 : W1 m ρ c (Proc.devRef .tc main_arg0) = feat m c := HostRead.first_keeps_arg0 (W0 m ρ c)
theorem weight1_1 : W1 m ρ c (Proc.devRef .tc main_arg2) = weight1 m c := HostRead.first_keeps_arg2 (W0 m ρ c)
theorem bias1_1 : W1 m ρ c (Proc.devRef .tc main_arg3) = bias1 m c := HostRead.first_keeps_arg3 (W0 m ρ c)
theorem weight2_1 : W1 m ρ c (Proc.devRef .tc main_arg4) = weight2 m c := HostRead.first_keeps_arg4 (W0 m ρ c)
theorem bias2_1 : W1 m ρ c (Proc.devRef .tc main_arg5) = bias2 m c := HostRead.first_keeps_arg5 (W0 m ρ c)

/-! ## After the first region -/

/-- The first region leaves the first linear transform in its result array. -/
theorem lin1_2 : W2 m ρ c (Proc.devRef .tc main_v29) = val_main_v4 (F := Ideal) (feat m c) (weight1 m c) := by
  refine (W2_arr m ρ c 2).trans ((Linear1.array_eq (V1 m ρ) c).trans ?_)
  rw [show V1 m ρ c main_arg0 = feat m c from feat1 m ρ c, show V1 m ρ c main_arg2 = weight1 m c from weight1_1 m ρ c]
  exact RegionStages.linear1 _ _
theorem src2 : W2 m ρ c (Proc.devRef .tc main_v1) = val_main_v1 (F := Ideal) (edges m c) := (W2_of_ne m ρ c main_v1 (by decide)).trans (src1 m ρ c)
theorem dst2 : W2 m ρ c (Proc.devRef .tc main_v3) = val_main_v3 (F := Ideal) (edges m c) := (W2_of_ne m ρ c main_v3 (by decide)).trans (dst1 m ρ c)
theorem dinvSq2 : W2 m ρ c (Proc.devRef .tc main_v12) = val_main_v41 (F := Ideal) (edges m c) := (W2_of_ne m ρ c main_v12 (by decide)).trans (dinvSq1 m ρ c)
theorem coef2 : W2 m ρ c (Proc.devRef .tc main_v28) = val_main_v34 (F := Ideal) (edges m c) := (W2_of_ne m ρ c main_v28 (by decide)).trans (coef1 m ρ c)
theorem bias1_2 : W2 m ρ c (Proc.devRef .tc main_arg3) = bias1 m c := (W2_of_ne m ρ c main_arg3 (by decide)).trans (bias1_1 m ρ c)
theorem weight2_2 : W2 m ρ c (Proc.devRef .tc main_arg4) = weight2 m c := (W2_of_ne m ρ c main_arg4 (by decide)).trans (weight2_1 m ρ c)
theorem bias2_2 : W2 m ρ c (Proc.devRef .tc main_arg5) = bias2 m c := (W2_of_ne m ρ c main_arg5 (by decide)).trans (bias2_1 m ρ c)

/-! ## After the second host stretch -/

theorem lin1_3 : W3 m ρ c (Proc.devRef .tc main_v29) = val_main_v4 (F := Ideal) (feat m c) (weight1 m c) :=
  (HostRead.second_keeps_v29 (W2 m ρ c)).trans (lin1_2 m ρ c)
/-- The aggregate of the first linear transform over the incoming edges. -/
theorem agg1_3 : W3 m ρ c (Proc.devRef .tc main_v41) = val_main_v39 (F := Ideal) (feat m c) (edges m c) (weight1 m c) := by
  refine (HostRead.second_aggregate (W2 m ρ c)).trans ?_
  rw [lin1_2 m ρ c, src2 m ρ c, dst2 m ρ c, coef2 m ρ c]
  exact (HostRead.ref_aggregateWide _ _ _).symm
theorem dinvSq3 : W3 m ρ c (Proc.devRef .tc main_v12) = val_main_v41 (F := Ideal) (edges m c) :=
  (HostRead.second_keeps_v12 (W2 m ρ c)).trans (dinvSq2 m ρ c)
/-- The first bias as a row. -/
theorem biasRow3 : W3 m ρ c (Proc.devRef .tc main_v42) = val_main_v45 (F := Ideal) (bias1 m c) := by
  refine (HostRead.second_bias (W2 m ρ c)).trans ?_
  rw [bias1_2 m ρ c]
  exact Layout.row_128 _
theorem src3 : W3 m ρ c (Proc.devRef .tc main_v1) = val_main_v1 (F := Ideal) (edges m c) := (HostRead.second_keeps_v1 (W2 m ρ c)).trans (src2 m ρ c)
theorem dst3 : W3 m ρ c (Proc.devRef .tc main_v3) = val_main_v3 (F := Ideal) (edges m c) := (HostRead.second_keeps_v3 (W2 m ρ c)).trans (dst2 m ρ c)
theorem coef3 : W3 m ρ c (Proc.devRef .tc main_v28) = val_main_v34 (F := Ideal) (edges m c) := (HostRead.second_keeps_v28 (W2 m ρ c)).trans (coef2 m ρ c)
theorem weight2_3 : W3 m ρ c (Proc.devRef .tc main_arg4) = weight2 m c := (HostRead.second_keeps_arg4 (W2 m ρ c)).trans (weight2_2 m ρ c)
theorem bias2_3 : W3 m ρ c (Proc.devRef .tc main_arg5) = bias2 m c := (HostRead.second_keeps_arg5 (W2 m ρ c)).trans (bias2_2 m ρ c)

/-! ## After the second region -/

/-- The second region leaves the hidden layer in its result array. -/
theorem hidden4 : W4 m ρ c (Proc.devRef .tc main_v43) = val_main_v48 (F := Ideal) (feat m c) (edges m c) (weight1 m c) (bias1 m c) := by
  refine (W4_arr m ρ c 4).trans ((Combine1.array_eq (V3 m ρ) c).trans ?_)
  rw [show V3 m ρ c main_v29 = _ from lin1_3 m ρ c, show V3 m ρ c main_v41 = _ from agg1_3 m ρ c,
    show V3 m ρ c main_v12 = _ from dinvSq3 m ρ c, show V3 m ρ c main_v42 = _ from biasRow3 m ρ c]
  exact RegionStages.combine1 _ _ _ _
theorem src4 : W4 m ρ c (Proc.devRef .tc main_v1) = val_main_v1 (F := Ideal) (edges m c) := (W4_of_ne m ρ c main_v1 (by decide)).trans (src3 m ρ c)
theorem dst4 : W4 m ρ c (Proc.devRef .tc main_v3) = val_main_v3 (F := Ideal) (edges m c) := (W4_of_ne m ρ c main_v3 (by decide)).trans (dst3 m ρ c)
theorem dinvSq4 : W4 m ρ c (Proc.devRef .tc main_v12) = val_main_v41 (F := Ideal) (edges m c) := (W4_arr m ρ c 2).trans (((dat1 (V3 m ρ) c).arrAt_in 2 rfl _).trans ((A_eq1 (V3 m ρ) c 2).trans (dinvSq3 m ρ c)))
theorem coef4 : W4 m ρ c (Proc.devRef .tc main_v28) = val_main_v34 (F := Ideal) (edges m c) := (W4_of_ne m ρ c main_v28 (by decide)).trans (coef3 m ρ c)
theorem weight2_4 : W4 m ρ c (Proc.devRef .tc main_arg4) = weight2 m c := (W4_of_ne m ρ c main_arg4 (by decide)).trans (weight2_3 m ρ c)
theorem bias2_4 : W4 m ρ c (Proc.devRef .tc main_arg5) = bias2 m c := (W4_of_ne m ρ c main_arg5 (by decide)).trans (bias2_3 m ρ c)

/-! ## After the third region -/

/-- The third region leaves the second linear transform in its result array. -/
theorem lin2_5 : W5 m ρ c (Proc.devRef .tc main_v44) = val_main_v49 (F := Ideal) (feat m c) (edges m c) (weight1 m c) (bias1 m c) (weight2 m c) := by
  refine (W5_arr m ρ c 2).trans ((Linear2.array_eq (V4 m ρ) c).trans ?_)
  rw [show V4 m ρ c main_v43 = _ from hidden4 m ρ c, show V4 m ρ c main_arg4 = weight2 m c from weight2_4 m ρ c]
  exact RegionStages.linear2 _ _ _ _ _
theorem src5 : W5 m ρ c (Proc.devRef .tc main_v1) = val_main_v1 (F := Ideal) (edges m c) := (W5_of_ne m ρ c main_v1 (by decide)).trans (src4 m ρ c)
theorem dst5 : W5 m ρ c (Proc.devRef .tc main_v3) = val_main_v3 (F := Ideal) (edges m c) := (W5_of_ne m ρ c main_v3 (by decide)).trans (dst4 m ρ c)
theorem dinvSq5 : W5 m ρ c (Proc.devRef .tc main_v12) = val_main_v41 (F := Ideal) (edges m c) := (W5_of_ne m ρ c main_v12 (by decide)).trans (dinvSq4 m ρ c)
theorem coef5 : W5 m ρ c (Proc.devRef .tc main_v28) = val_main_v34 (F := Ideal) (edges m c) := (W5_of_ne m ρ c main_v28 (by decide)).trans (coef4 m ρ c)
theorem bias2_5 : W5 m ρ c (Proc.devRef .tc main_arg5) = bias2 m c := (W5_of_ne m ρ c main_arg5 (by decide)).trans (bias2_4 m ρ c)

/-! ## After the last host stretch -/

theorem lin2_6 : W6 m ρ c (Proc.devRef .tc main_v44) = val_main_v49 (F := Ideal) (feat m c) (edges m c) (weight1 m c) (bias1 m c) (weight2 m c) :=
  (HostRead.third_keeps_v44 (W5 m ρ c)).trans (lin2_5 m ρ c)
/-- The aggregate of the second linear transform over the incoming edges. -/
theorem agg2_6 : W6 m ρ c (Proc.devRef .tc main_v55) = val_main_v83 (F := Ideal) (feat m c) (edges m c) (weight1 m c) (bias1 m c) (weight2 m c) := by
  refine (HostRead.third_aggregate (W5 m ρ c)).trans ?_
  rw [lin2_5 m ρ c, src5 m ρ c, dst5 m ρ c, coef5 m ρ c]
  exact (HostRead.ref_aggregateCol _ _ _ _ _).symm
/-- The reference's second layer recomputes the squared inverse square-root degrees: the same column. -/
theorem dinvSq6 : W6 m ρ c (Proc.devRef .tc main_v12) = val_main_v85 (F := Ideal) (edges m c) :=
  (HostRead.third_keeps_v12 (W5 m ρ c)).trans ((dinvSq5 m ρ c).trans (HostRead.ref_dinv2_again _).symm)
/-- The second bias as a 1 x 1 matrix. -/
theorem biasUnit6 : W6 m ρ c (Proc.devRef .tc main_v56) = val_main_v88 (F := Ideal) (bias2 m c) := by
  refine (HostRead.third_bias (W5 m ρ c)).trans ?_
  rw [bias2_5 m ρ c]
  exact Layout.unit_1 _

/-! ## After the fourth region: the result -/

/-- On every core the kernel program's result array ends at the reference's result of the six argument arrays. -/
theorem result_eq : W7 m ρ c (Proc.devRef .tc main_v57)
    = val_main_v90 (F := Ideal) (feat m c) (edges m c) (weight1 m c) (bias1 m c) (weight2 m c) (bias2 m c) := by
  refine (RunOut.W7_out m ρ c).trans ((Combine2.array_eq (V6 m ρ) c).trans ?_)
  rw [show V6 m ρ c main_v44 = _ from lin2_6 m ρ c, show V6 m ρ c main_v55 = _ from agg2_6 m ρ c,
    show V6 m ρ c main_v12 = _ from dinvSq6 m ρ c, show V6 m ρ c main_v56 = _ from biasUnit6 m ρ c]
  exact RegionStages.combine2 _ _ _ _ _ _

end Cert.Assembly

end
-- ==== Proof.lean ====
/-
  A two-layer graph convolution in four kernel regions equals its host reference on the extended reals.

  With `deg = 1 + (number of edges into a node)`, `dinv = deg^(-1/2)` and edge coefficients
  `dinv (src e) * dinv (dst e)`, a layer maps node features `h` to
  `(sum over the edges e into the node of (h W) (src e) * coef e) + (h W) * dinv^2 + b`, and the network is two such
  layers with `max (., 0)` between them. The reference computes all of it on the host. The kernel's program computes
  the degrees, the coefficients and the two aggregates on the host with the same operations, and the two matrix
  products `h W` and the two entrywise combines in four regions that walk the 100000 node rows in twenty blocks of
  5000. On the extended reals the change of float format before a block product is the identity and a block product
  into a zero accumulator is the reference's sum over the contracted axis, the blocks tile their arrays, and a
  reshape to a column or a row is the reference's broadcast; so every buffer the program passes on holds one of the
  reference's stages, and its result is the reference's result. No algebraic law is used beyond that: the two sides
  apply the same operations in the same order and grouping, so the inputs' finiteness is never opened.

  The three frames: the two kernel programs' by their frame certificates, the reference's by its run with the result
  dropped. The idealization rewrote no operation, so there is nothing to preserve.
-/
import proofs.«173015_j60052232732743_1_alg».proof.Defs
import proofs.«173015_j60052232732743_1_alg».proof.Proof.Gen.Kernel
import proofs.«173015_j60052232732743_1_alg».proof.Proof.Gen.Kernel.Skeleton
import proofs.«173015_j60052232732743_1_alg».proof.Proof.Gen.Kernel.Launch
import proofs.«173015_j60052232732743_1_alg».proof.Proof.Gen.Kernel.Points
import proofs.«173015_j60052232732743_1_alg».proof.Proof.Gen.Kernel.Frame
import proofs.«173015_j60052232732743_1_alg».proof.Proof.Gen.KernelIdeal
import proofs.«173015_j60052232732743_1_alg».proof.Proof.Gen.KernelIdeal.Skeleton
import proofs.«173015_j60052232732743_1_alg».proof.Proof.Gen.KernelIdeal.Launch
import proofs.«173015_j60052232732743_1_alg».proof.Proof.Gen.KernelIdeal.Points
import proofs.«173015_j60052232732743_1_alg».proof.Proof.Gen.KernelIdeal.Frame
import proofs.«173015_j60052232732743_1_alg».proof.Proof.Gen.ReferenceIdeal
import proofs.«173015_j60052232732743_1_alg».proof.Proof.Gen.ReferenceIdeal.Run
import proofs.«173015_j60052232732743_1_alg».proof.Proof.Gen.ReferenceIdeal.Read
import proofs.«173015_j60052232732743_1_alg».proof.Proof.Gen.Pre_finite_inputs
import proofs.«173015_j60052232732743_1_alg».proof.Proof.KernelRun
import proofs.«173015_j60052232732743_1_alg».proof.Proof.Assembly
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel program's result array ends at the last boundary's contents, the reference's at its
    last stage, and from memories that agree on the six arguments these are one array. -/
theorem algebraic : Cert.algebraic_KernelIdeal_ReferenceIdeal := by
  intro m ρ m' ρ' _ hagree
  refine ⟨fun c => Cert.KernelIdeal.Gen.W7 m ρ c (Proc.devRef .tc Cert.KernelIdeal.main_v57), Cert.KernelIdeal.RunOut.run_out m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v90_eq, (hagree c).1, (hagree c).2.1, (hagree c).2.2.1, (hagree c).2.2.2.1,
    (hagree c).2.2.2.2.1, (hagree c).2.2.2.2.2]
  exact (Cert.Assembly.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
